-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x128 : Shape := ⟨2, ![10, 128]⟩
abbrev S10x10 : Shape := ⟨2, ![10, 10]⟩
abbrev S_ : Shape := ⟨0, ![]⟩
abbrev S10x10x128 : Shape := ⟨3, ![10, 10, 128]⟩
abbrev S10x1280 : Shape := ⟨2, ![10, 1280]⟩
abbrev S131072x128 : Shape := ⟨2, ![131072, 128]⟩
abbrev S1024x10 : Shape := ⟨2, ![1024, 10]⟩
abbrev S1024x128 : Shape := ⟨2, ![1024, 128]⟩
abbrev S1024x1280 : Shape := ⟨2, ![1024, 1280]⟩
abbrev S1x128 : Shape := ⟨2, ![1, 128]⟩

abbrev nBuf : Space → Nat
  | .hbm => 14
  | .vmem => 7
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x128, .f32⟩
  | .hbm, ⟨4, _⟩ => ⟨S10x10, .i32⟩
  | .hbm, ⟨5, _⟩ => ⟨S10x10, .i32⟩
  | .hbm, ⟨6, _⟩ => ⟨S_, .i32⟩
  | .hbm, ⟨7, _⟩ => ⟨S10x10, .i32⟩
  | .hbm, ⟨8, _⟩ => ⟨S10x10, .i32⟩
  | .hbm, ⟨9, _⟩ => ⟨S10x10, .i1⟩
  | .hbm, ⟨10, _⟩ => ⟨S10x10, .f32⟩
  | .hbm, ⟨11, _⟩ => ⟨S10x10x128, .f32⟩
  | .hbm, ⟨12, _⟩ => ⟨S10x1280, .f32⟩
  | .hbm, ⟨13, _⟩ => ⟨S131072x128, .f32⟩
  | .local _ .vmem, ⟨0, _⟩ => ⟨S1024x10, .f32⟩
  | .local _ .vmem, ⟨1, _⟩ => ⟨S1024x10, .f32⟩
  | .local _ .vmem, ⟨2, _⟩ => ⟨S10x1280, .f32⟩
  | .local _ .vmem, ⟨3, _⟩ => ⟨S10x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x10_S10x128_1_0 : S128x10.Transposes [1, 0] S10x128
  bcast_S_S10x10 : S_.BroadcastsInDim S10x10 (![] : Fin 0 → Fin S10x10.rank)
  bcast_S10x10_S10x10x128_0_1 : S10x10.BroadcastsInDim S10x10x128 (![0, 1] : Fin 2 → Fin S10x10x128.rank)
  shapeCasts_S10x10x128_S10x1280 : S10x10x128.ShapeCasts S10x1280
  inb_S1024x10_S1024x10_0_0 : ∀ a, (![0, 0] : Fin 2 → Nat) a + S1024x10.size a ≤ S1024x10.size a
  h_S1024x10 : 0 < S1024x10.numel
  inb_S10x1280_S10x1280_0_0 : ∀ a, (![0, 0] : Fin 2 → Nat) a + S10x1280.size a ≤ S10x1280.size a
  h_S10x1280 : 0 < S10x1280.numel
  shapeCasts_S10x1280_S10x1280 : S10x1280.ShapeCasts S10x1280
  slices_S1024x1280_o0_0_S1024x128 : S1024x1280.Slices ![0, 0] S1024x128
  inb_S10x128_S1x128_0_0 : ∀ a, (![0, 0] : Fin 2 → Nat) a + S1x128.size a ≤ S10x128.size a
  h_S1x128 : 0 < S1x128.numel
  shapeCasts_S1x128_S1x128 : S1x128.ShapeCasts S1x128
  broadcasts_S1x128_S1024x128 : S1x128.Broadcasts S1024x128
  slices_S1024x1280_o0_128_S1024x128 : S1024x1280.Slices ![0, 128] S1024x128
  inb_S10x128_S1x128_1_0 : ∀ a, (![1, 0] : Fin 2 → Nat) a + S1x128.size a ≤ S10x128.size a
  slices_S1024x1280_o0_256_S1024x128 : S1024x1280.Slices ![0, 256] S1024x128
  inb_S10x128_S1x128_2_0 : ∀ a, (![2, 0] : Fin 2 → Nat) a + S1x128.size a ≤ S10x128.size a
  slices_S1024x1280_o0_384_S1024x128 : S1024x1280.Slices ![0, 384] S1024x128
  inb_S10x128_S1x128_3_0 : ∀ a, (![3, 0] : Fin 2 → Nat) a + S1x128.size a ≤ S10x128.size a
  slices_S1024x1280_o0_512_S1024x128 : S1024x1280.Slices ![0, 512] S1024x128
  inb_S10x128_S1x128_4_0 : ∀ a, (![4, 0] : Fin 2 → Nat) a + S1x128.size a ≤ S10x128.size a
  slices_S1024x1280_o0_640_S1024x128 : S1024x1280.Slices ![0, 640] S1024x128
  inb_S10x128_S1x128_5_0 : ∀ a, (![5, 0] : Fin 2 → Nat) a + S1x128.size a ≤ S10x128.size a
  slices_S1024x1280_o0_768_S1024x128 : S1024x1280.Slices ![0, 768] S1024x128
  inb_S10x128_S1x128_6_0 : ∀ a, (![6, 0] : Fin 2 → Nat) a + S1x128.size a ≤ S10x128.size a
  slices_S1024x1280_o0_896_S1024x128 : S1024x1280.Slices ![0, 896] S1024x128
  inb_S10x128_S1x128_7_0 : ∀ a, (![7, 0] : Fin 2 → Nat) a + S1x128.size a ≤ S10x128.size a
  slices_S1024x1280_o0_1024_S1024x128 : S1024x1280.Slices ![0, 1024] S1024x128
  inb_S10x128_S1x128_8_0 : ∀ a, (![8, 0] : Fin 2 → Nat) a + S1x128.size a ≤ S10x128.size a
  slices_S1024x1280_o0_1152_S1024x128 : S1024x1280.Slices ![0, 1152] S1024x128
  inb_S10x128_S1x128_9_0 : ∀ a, (![9, 0] : Fin 2 → Nat) a + S1x128.size a ≤ S10x128.size a
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  dot_S1024x10_S10x1280_S1024x1280_1_0_0_1_n_n_wf : DotDims.WF S1024x10 S10x1280 S1024x1280 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S131072x10.size a
  hwx0_0 : ∀ i : grid0.Coords, EltTy.bits .f32 = 32 ∨ (Rect.block (s := S131072x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1280.size a ≤ S10x1280.size a
  hwx0_1 : ∀ i : grid0.Coords, EltTy.bits .f32 = 32 ∨ (Rect.block (s := S10x1280) S10x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S131072x128.size a
  hwx0_4 : ∀ i : grid0.Coords, EltTy.bits .f32 = 32 ∨ (Rect.block (s := S131072x128) S1024x128.size (cc0_transform_4 i) (hinb0_4 i)).WholeWords (EltTy.packing .f32)

variable [Facts₀]

def dot_S1024x10_S10x1280_S1024x1280_1_0_0_1_n_n : DotDims S1024x10 S10x1280 S1024x1280 where
  lhsContracting := [1]
  rhsContracting := [0]
  lhsNonContracting := [0]
  rhsNonContracting := [1]
  lhsBatch := []
  rhsBatch := []
  wf := dot_S1024x10_S10x1280_S1024x1280_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The function both programs compute, and the small laws of the extended reals that join their two spellings.

  For points x_n in R^10 (the rows of `x`), centres p_k in R^10 (the rows of `p`) and a matrix `c`, the result is
  out[n, j] = sum_k exp(-(sum_d |x[n,d] - p[k,d]|)) * c[k, j]:
  the product Laplace kernel matrix exp(-||x_n - p_k||_1) times `c`. Everything is stated on the extended reals, where
  addition and multiplication are commutative and associative and 0 * y = 0 for every y, so none of the laws below needs
  the entries to be finite.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.LaplaceGram

open Idealize.ShloMosaic Idealize.ShloMosaic.ValueIdx

/-- The points: 131072 rows of 10 coordinates. -/
abbrev SX : Shape := ⟨2, ![131072, 10]⟩
/-- The centres: 128 rows of 10 coordinates. -/
abbrev SP : Shape := ⟨2, ![128, 10]⟩
/-- The right factor: 128 by 128. -/
abbrev SC : Shape := ⟨2, ![128, 128]⟩
/-- The result: 131072 by 128. -/
abbrev SO : Shape := ⟨2, ![131072, 128]⟩

/-- One coordinate's contribution to the distance: |a - b| on the extended reals, as max (a - b) (-(a - b)). -/
def absDiff (a b : EReal) : EReal := max (a - b) (-(a - b))

/-- The l1 distance between point `n` and centre `k`: the sum over the ten coordinates of |x[n,d] - p[k,d]|. -/
def dist (x : SX.Idx → EReal) (p : SP.Idx → EReal) (n : Fin 131072) (k : Fin 128) : EReal :=
  ∑ d : Fin 10, absDiff (x (ix2 n d)) (p (ix2 k d))

/-- The Laplace kernel matrix entry exp(-dist). -/
def gram (x : SX.Idx → EReal) (p : SP.Idx → EReal) (n : Fin 131072) (k : Fin 128) : EReal :=
  Ideal.exp (-(dist x p n k))

/-- THE RESULT: the kernel matrix times `c`, entry by entry. -/
def out (x : SX.Idx → EReal) (p : SP.Idx → EReal) (c : SC.Idx → EReal) : SO.Idx → EReal :=
  fun i => ∑ k : Fin 128, gram x p (i 0) k * c (ix2 k (i 1))

/-- Ten terms added one after the other, from the left, are the sum over the ten indices. -/
theorem add_ten (f : Fin 10 → EReal) :
    ((((((((f 0 + f 1) + f 2) + f 3) + f 4) + f 5) + f 6) + f 7) + f 8) + f 9 = ∑ d : Fin 10, f d := by
  simp only [Fin.sum_univ_castSucc, Fin.sum_univ_zero, zero_add]
  rfl

/-- A row times a 0/1 column that is 1 exactly at `d` picks the row's entry at `d`: 0 * y = 0 and 1 * y = y for every
    extended real y, so no finiteness is needed. -/
theorem sum_pick (a : Fin 10 → EReal) (d : Fin 10) :
    ∑ q : Fin 10, a q * (if q = d then (1 : EReal) else 0) = a d := by
  simp only [mul_ite, mul_one, mul_zero, Finset.sum_ite_eq', Finset.mem_univ, if_true]

/-- Dividing by the word of 1.0 changes nothing. -/
theorem div_one_f32 (y : EReal) : Ideal.div y (Ideal.ofBits .f32 0x3F800000#32) = y := by
  rw [Ideal.ofBits_one_f32, ← EReal.coe_one, Ideal.div_coe one_ne_zero]
  simp

/-- 0 - y = -y on the extended reals. -/
theorem zero_sub_ereal (y : EReal) : (0 : EReal) - y = -y := by
  rw [sub_eq_add_neg, zero_add]

/-- A one-bit word read as an unsigned integer is 1 when the bit is set and 0 otherwise. -/
theorem uitofp_bit (b : BitVec 1) :
    FloatOps.uitofp (F := Ideal) .f32 b = if b = 1#1 then (1 : EReal) else 0 := by
  rcases BitVec.eq_zero_or_eq_one b with h | h <;> subst h <;> simp [FloatOps.uitofp]

end Cert.LaplaceGram

end
-- ==== Proof.RefValue.lean ====
/-
  The reference, read entry by entry, is the Laplace kernel matrix times `c`.

  Its program broadcasts the points and the centres to [131072, 128, 10], subtracts, takes absolute values, sums over the
  coordinate axis from the initial value 0, negates, divides by 1, exponentiates, and multiplies by `c`. Entry by entry:
  the initial 0 is neutral, division by 1 is the identity, so the exponent is minus the l1 distance, and the product with
  `c` is the sum over the 128 centres.
-/
import proofs.«179358_g10067403342211_week1_w1_198_4_alg».proof.Proof.Gen.ReferenceIdeal.Read
import proofs.«179358_g10067403342211_week1_w1_198_4_alg».proof.Proof.Spec

noncomputable section

open scoped BigOperators

namespace Cert.LaplaceGram.Ref

open Cert.ReferenceIdeal Cert.ReferenceIdeal.Gen Cert.ReferenceIdeal.Read
open Idealize.ShloMosaic Idealize.ShloMosaic.ValueIdx Cert.LaplaceGram

/-- Reading the two broadcasts back: entry (n, k, d) of the broadcast points is x[n, d]. -/
theorem point_idx (i : S131072x128.Idx) (k : Fin 128) (d : Fin 10) :
    idx_main_v0 (idx_main_v2 (idx_main_v6 (lidx_main_v11 i k) d)) = ix2 (i 0) d :=
  funext fun a => by match a with | ⟨0, _⟩ => rfl | ⟨1, _⟩ => rfl

/-- Entry (n, k, d) of the broadcast centres is p[k, d]. -/
theorem centre_idx (i : S131072x128.Idx) (k : Fin 128) (d : Fin 10) :
    idx_main_v1 (idx_main_v3 (idx_main_v6 (lidx_main_v11 i k) d)) = ix2 k d :=
  funext fun a => by match a with | ⟨0, _⟩ => rfl | ⟨1, _⟩ => rfl

/-- The right factor is read at (k, j). -/
theorem factor_idx (i : S131072x128.Idx) (k : Fin 128) : ridx_main_v11 i k = ix2 k (i 1) :=
  funext fun a => by match a with | ⟨0, _⟩ => rfl | ⟨1, _⟩ => rfl

/-- The reference's exponentiated stage at (n, k) is the Laplace kernel matrix entry. -/
theorem gram_stage (x : (⟨S131072x10, .f32⟩ : BufTy).Contents (Elt Ideal)) (p : (⟨S128x10, .f32⟩ : BufTy).Contents (Elt Ideal))
    (i : S131072x128.Idx) (k : Fin 128) :
    val_main_v10 (F := Ideal) x p (lidx_main_v11 i k) = gram x p (i 0) k := by
  rw [val_main_v10_apply, val_main_v9_apply, val_main_v7_apply, val_main_v8_apply, val_main_cst_0_apply,
    val_main_v6_apply, val_main_cst_apply]
  simp only [Ideal.hostUnary_exp_def, Ideal.hostDivf_def, Ideal.hostNegf_def, Ideal.negf_def, Ideal.ofBits_def,
    div_one_f32, Ideal.ofBits_zero_f32, zero_add]
  unfold gram dist
  refine congrArg (fun s => Ideal.exp (-s)) (Finset.sum_congr rfl fun d _ => ?_)
  rw [val_main_v5_apply, val_main_v4_apply, val_main_v2_apply, val_main_v0_apply, val_main_v3_apply, val_main_v1_apply,
    point_idx, centre_idx]
  rfl

/-- THE REFERENCE'S RESULT is `out` of its arguments. -/
theorem result_eq (x : (⟨S131072x10, .f32⟩ : BufTy).Contents (Elt Ideal)) (p : (⟨S128x10, .f32⟩ : BufTy).Contents (Elt Ideal))
    (c : (⟨S128x128, .f32⟩ : BufTy).Contents (Elt Ideal)) :
    val_main_v11 (F := Ideal) x p c = out x p c := by
  funext i
  rw [val_main_v11_apply]
  unfold out
  refine Finset.sum_congr rfl fun k _ => ?_
  rw [gram_stage, factor_idx]
  rfl

end Cert.LaplaceGram.Ref

end
-- ==== Proof.KernelBlock.lean ====
/-
  One block of the kernel's result, entry by entry.

  At a grid point the body holds 1024 rows of the points (`x0`), the whole 10 x 1280 selector matrix (`x1`), the 10 x 128
  transposed centres (`x2`) and the 128 x 128 right factor (`x3`). It first multiplies the rows by the selector: entry
  (r, 128 d + l) of that product is the sum over q of x0[r, q] * x1[q, 128 d + l], and the selector is 1 at q = d and 0
  elsewhere, so the entry is x0[r, d] — coordinate d of row r, repeated along the 128 lanes (0 * y = 0 on the extended
  reals, whatever y is). The ten lane groups, each minus row d of the centres, in absolute value, are added one after the
  other; the exponential of 0 minus that sum is multiplied by the right factor. So entry (r, j) of the block is
  the sum over k of exp(-(sum over d of |x0[r, d] - x2[d, k]|)) * x3[k, j].
-/
import proofs.«179358_g10067403342211_week1_w1_198_4_alg».proof.Proof.Gen.KernelIdeal.Frame
import proofs.«179358_g10067403342211_week1_w1_198_4_alg».proof.Proof.Spec
import Idealize.ShloMosaic.Lib.Pipeline.Value
import Idealize.ShloMosaic.Lib.ValueIdx
import Idealize.ShloMosaic.PureOps.Ideal.Laws

noncomputable section

open scoped BigOperators

namespace Cert.LaplaceGram.Block

open Cert.KernelIdeal Cert.KernelIdeal.Gen
open Idealize.ShloMosaic Idealize.ShloMosaic.ValueIdx Cert.LaplaceGram

theorem hz : (![0, 0] : Fin 2 → Nat) = fun _ => 0 := funext fun a => by fin_cases a <;> rfl

/-- An absolute value at an entry is max a (-a) of the entry. -/
theorem absf_at {s : Shape} {φ : FTy} (a : FVec Ideal s φ) (i : s.Idx) : absf a i = max (a i) (-(a i)) := rfl
/-- An exponential at an entry is the exponential of the entry. -/
theorem exp_at {s : Shape} {φ : FTy} (a : FVec Ideal s φ) (i : s.Idx) : exp a i = Ideal.exp (a i) := rfl

/-! ## The two products' operand indices: (r, q) and (q, c) at contraction index q -/

theorem lhsA_0 (i : S1024x1280.Idx) (q : dot_S1024x10_S10x1280_S1024x1280_1_0_0_1_n_n.contr.Idx) :
    (dot_S1024x10_S10x1280_S1024x1280_1_0_0_1_n_n.lhsIdx i q 0).val = (i 0).val := by
  unfold DotDims.lhsIdx
  rw [dif_neg (show ¬(0 : Fin S1024x10.rank) ∈ dot_S1024x10_S10x1280_S1024x1280_1_0_0_1_n_n.lhsBatch by decide), dif_pos (show (0 : Fin S1024x10.rank) ∈ dot_S1024x10_S10x1280_S1024x1280_1_0_0_1_n_n.lhsNonContracting by decide)]
  rfl
theorem lhsA_1 (i : S1024x1280.Idx) (q : dot_S1024x10_S10x1280_S1024x1280_1_0_0_1_n_n.contr.Idx) :
    (dot_S1024x10_S10x1280_S1024x1280_1_0_0_1_n_n.lhsIdx i q 1).val = (q ⟨0, by decide⟩).val :=
  dot_S1024x10_S10x1280_S1024x1280_1_0_0_1_n_n.lhsIdx_val_of_single rfl i q
theorem rhsA_0 (i : S1024x1280.Idx) (q : dot_S1024x10_S10x1280_S1024x1280_1_0_0_1_n_n.contr.Idx) :
    (dot_S1024x10_S10x1280_S1024x1280_1_0_0_1_n_n.rhsIdx i q 0).val = (q ⟨0, by decide⟩).val :=
  dot_S1024x10_S10x1280_S1024x1280_1_0_0_1_n_n.rhsIdx_val_of_single rfl i q
theorem rhsA_1 (i : S1024x1280.Idx) (q : dot_S1024x10_S10x1280_S1024x1280_1_0_0_1_n_n.contr.Idx) :
    (dot_S1024x10_S10x1280_S1024x1280_1_0_0_1_n_n.rhsIdx i q 1).val = (i 1).val := by
  unfold DotDims.rhsIdx
  rw [dif_neg (show ¬(1 : Fin S10x1280.rank) ∈ dot_S1024x10_S10x1280_S1024x1280_1_0_0_1_n_n.rhsBatch by decide), dif_pos (show (1 : Fin S10x1280.rank) ∈ dot_S1024x10_S10x1280_S1024x1280_1_0_0_1_n_n.rhsNonContracting by decide)]
  rfl

theorem lhsB_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsB_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsB_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsB_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-! ## The selector product repeats a coordinate along the lanes -/

/-- A 10 x 1280 matrix is the SELECTOR when its entry (q, 128 d + l) is 1 for q = d and 0 otherwise. -/
def IsSelector (e : Vec Ideal S10x1280 .f32) : Prop :=
  ∀ (q d : Fin 10) (l : Fin 128) (h : d.val * 128 + l.val < 1280),
    e (ix2 q ⟨d.val * 128 + l.val, h⟩) = if q = d then (1 : EReal) else 0

/-- Rows times the selector: entry (r, 128 d + l) is coordinate d of row r. -/
theorem replicate_apply (v0 : Vec Ideal S1024x10 .f32) (v1 : Vec Ideal S10x1280 .f32) (hE : IsSelector v1)
    (r : Fin 1024) (d : Fin 10) (l : Fin 128) (h : d.val * 128 + l.val < 1280) :
    k0_pay2 v0 v1 (ix2 r ⟨d.val * 128 + l.val, h⟩) = v0 (ix2 r d) := by
  unfold k0_pay2
  simp only [matmul, shapeCast_self]
  rw [Ideal.matmul_constant_zero_apply,
    ← Equiv.sum_comp (contrEquiv1 dot_S1024x10_S10x1280_S1024x1280_1_0_0_1_n_n 10 rfl rfl).symm,
    ← sum_pick (fun q => v0 (ix2 r q)) d]
  refine Finset.sum_congr rfl fun q _ => ?_
  have hq := contrEquiv1_symm_val dot_S1024x10_S10x1280_S1024x1280_1_0_0_1_n_n 10 rfl rfl q
  have el : dot_S1024x10_S10x1280_S1024x1280_1_0_0_1_n_n.lhsIdx (ix2 r ⟨d.val * 128 + l.val, h⟩) ((contrEquiv1 dot_S1024x10_S10x1280_S1024x1280_1_0_0_1_n_n 10 rfl rfl).symm q) = ix2 r q := funext fun a => Fin.ext (by
    match a with
    | ⟨0, _⟩ => exact lhsA_0 _ _
    | ⟨1, _⟩ => exact (lhsA_1 _ _).trans hq)
  have er : dot_S1024x10_S10x1280_S1024x1280_1_0_0_1_n_n.rhsIdx (ix2 r ⟨d.val * 128 + l.val, h⟩) ((contrEquiv1 dot_S1024x10_S10x1280_S1024x1280_1_0_0_1_n_n 10 rfl rfl).symm q) = ix2 q ⟨d.val * 128 + l.val, h⟩ := funext fun a => Fin.ext (by
    match a with
    | ⟨0, _⟩ => exact (rhsA_0 _ _).trans hq
    | ⟨1, _⟩ => exact rhsA_1 _ _)
  rw [el, er, hE q d l h]

/-- Lane group d of the product (the slice at lane offset 128 d) is coordinate d of each row. -/
theorem slice_apply (v0 : Vec Ideal S1024x10 .f32) (v1 : Vec Ideal S10x1280 .f32) (hE : IsSelector v1)
    (o : Nat) (hs : S1024x1280.Slices ![0, o] S1024x128) (d : Fin 10) (ho : o = d.val * 128) (r : Fin 1024) (l : Fin 128) :
    extractStridedSlice S1024x128 ![0, o] (k0_pay2 v0 v1) hs (ix2 r l) = v0 (ix2 r d) := by
  subst ho
  have hlt : d.val * 128 + l.val < 1280 := by have := d.isLt; have := l.isLt; omega
  refine (extractStridedSlice_apply _ _ hs (ix2 r l) (ix2 r ⟨d.val * 128 + l.val, hlt⟩) (fun a => ?_)).trans
    (replicate_apply v0 v1 hE r d l hlt)
  match a with
  | ⟨0, _⟩ => show r.val = 0 + r.val; omega
  | ⟨1, _⟩ => show d.val * 128 + l.val = d.val * 128 + l.val; rfl

/-- A single row spread down the 1024 rows: entry (r, l) is the row's entry l. -/
theorem spread_apply (v : Vec Ideal S1x128 .f32) (r : Fin 1024) (l : Fin 128) :
    broadcastTo S1024x128 (shapeCast S1x128 v shapeCasts_S1x128_S1x128) broadcasts_S1x128_S1024x128 (ix2 r l)
      = v (ix2 (0 : Fin 1) l) := by
  rw [shapeCast_self]
  refine broadcastTo_apply _ broadcasts_S1x128_S1024x128 (ix2 r l) (ix2 (0 : Fin 1) l) (fun a => ?_)
  match a with
  | ⟨0, _⟩ => show 0 = if (1 : Nat) = 1 then 0 else _; rw [if_pos rfl]
  | ⟨1, _⟩ => show l.val = if (128 : Nat) = 1 then 0 else l.val; rw [if_neg (by decide)]

/-- Row o of the centres, spread down the 1024 rows: entry (r, l) is x2[o, l]. -/
theorem row_apply (x2 : Vec Ideal S10x128 .f32) (o : Nat) (ho : o < 10)
    (inb : ∀ a, (![o, 0] : Fin 2 → Nat) a + S1x128.size a ≤ S10x128.size a) (r : Fin 1024) (l : Fin 128) :
    broadcastTo S1024x128 (shapeCast S1x128 (View.ld x2 (Rect.unit (s := S10x128) ![o, 0] S1x128.size inb)) shapeCasts_S1x128_S1x128)
      broadcasts_S1x128_S1024x128 (ix2 r l) = x2 (ix2 ⟨o, ho⟩ l) := by
  refine (spread_apply (View.ld x2 (Rect.unit (s := S10x128) ![o, 0] S1x128.size inb)) r l).trans ?_
  show x2 _ = x2 _
  congr 1
  funext a; apply Fin.ext
  match a with
  | ⟨0, _⟩ => show o + 1 * 0 = o; omega
  | ⟨1, _⟩ => show 0 + 1 * l.val = l.val; omega

/-! ## The distance, accumulated coordinate by coordinate -/

/-- The first five coordinates' contributions, added from the left. -/
theorem acc_lo_apply (v0 : Vec Ideal S1024x10 .f32) (v1 : Vec Ideal S10x1280 .f32) (hE : IsSelector v1)
    (x2 : Vec Ideal S10x128 .f32) (r : Fin 1024) (l : Fin 128) :
    k0_pay3 v0 v1 (View.ld x2 r0_2) (View.ld x2 r0_3) (View.ld x2 r0_4) (View.ld x2 r0_5) (View.ld x2 r0_6) (ix2 r l)
      = (((absDiff (v0 (ix2 r ⟨0, by decide⟩)) (x2 (ix2 ⟨0, by decide⟩ l)) + absDiff (v0 (ix2 r ⟨1, by decide⟩)) (x2 (ix2 ⟨1, by decide⟩ l))) + absDiff (v0 (ix2 r ⟨2, by decide⟩)) (x2 (ix2 ⟨2, by decide⟩ l))) + absDiff (v0 (ix2 r ⟨3, by decide⟩)) (x2 (ix2 ⟨3, by decide⟩ l))) + absDiff (v0 (ix2 r ⟨4, by decide⟩)) (x2 (ix2 ⟨4, by decide⟩ l)) := by
  unfold k0_pay3
  simp only [addf_apply, absf_at, subf_apply,
    slice_apply v0 v1 hE 0 slices_S1024x1280_o0_0_S1024x128 ⟨0, by decide⟩ rfl r l,
    slice_apply v0 v1 hE 128 slices_S1024x1280_o0_128_S1024x128 ⟨1, by decide⟩ rfl r l,
    slice_apply v0 v1 hE 256 slices_S1024x1280_o0_256_S1024x128 ⟨2, by decide⟩ rfl r l,
    slice_apply v0 v1 hE 384 slices_S1024x1280_o0_384_S1024x128 ⟨3, by decide⟩ rfl r l,
    slice_apply v0 v1 hE 512 slices_S1024x1280_o0_512_S1024x128 ⟨4, by decide⟩ rfl r l,
    row_apply x2 0 (by decide) inb_S10x128_S1x128_0_0 r l,
    row_apply x2 1 (by decide) inb_S10x128_S1x128_1_0 r l,
    row_apply x2 2 (by decide) inb_S10x128_S1x128_2_0 r l,
    row_apply x2 3 (by decide) inb_S10x128_S1x128_3_0 r l,
    row_apply x2 4 (by decide) inb_S10x128_S1x128_4_0 r l]
  rfl

/-- Lane group 5 of the product. -/
theorem lane5_apply (v0 : Vec Ideal S1024x10 .f32) (v1 : Vec Ideal S10x1280 .f32) (hE : IsSelector v1) (r : Fin 1024) (l : Fin 128) :
    k0_pay4 v0 v1 (ix2 r l) = v0 (ix2 r ⟨5, by decide⟩) := by
  unfold k0_pay4
  exact slice_apply v0 v1 hE 640 slices_S1024x1280_o0_640_S1024x128 ⟨5, by decide⟩ rfl r l

/-- Row 5 of the centres, spread down the rows. -/
theorem row5_apply (x2 : Vec Ideal S10x128 .f32) (r : Fin 1024) (l : Fin 128) :
    k0_pay5 (View.ld x2 r0_7) (ix2 r l) = x2 (ix2 ⟨5, by decide⟩ l) := by
  unfold k0_pay5
  exact row_apply x2 5 (by decide) inb_S10x128_S1x128_5_0 r l

/-- ENTRY (r, j) OF THE BLOCK the body leaves: the Laplace kernel matrix of the block's rows against the centres (read
    through their transpose `x2`), times the right factor. -/
theorem block_apply (x0 : Vec Ideal S1024x10 .f32) (x1 : Vec Ideal S10x1280 .f32) (x2 : Vec Ideal S10x128 .f32)
    (x3 : Vec Ideal S128x128 .f32) (hE : IsSelector x1) (r : Fin 1024) (j : Fin 128) :
    out0_4 x0 x1 x2 x3 (ix2 r j)
      = ∑ k : Fin 128, Ideal.exp (-(∑ d : Fin 10, absDiff (x0 (ix2 r d)) (x2 (ix2 d k)))) * x3 (ix2 k j) := by
  unfold out0_4
  rw [View.canon_unit_zero hz]
  simp only [View.ld_unit_zero (S := S1024x10) hz, View.ld_unit_zero (S := S10x1280) hz, View.ld_unit_zero (S := S128x128) hz]
  unfold k0_pay1
  simp only [matmul]
  rw [Ideal.matmul_constant_zero_apply,
    ← Equiv.sum_comp (contrEquiv1 dot_S1024x128_S128x128_S1024x128_1_0_0_1_n_n 128 rfl rfl).symm]
  refine Finset.sum_congr rfl fun l _ => ?_
  have hl := contrEquiv1_symm_val dot_S1024x128_S128x128_S1024x128_1_0_0_1_n_n 128 rfl rfl l
  have el : dot_S1024x128_S128x128_S1024x128_1_0_0_1_n_n.lhsIdx (ix2 r j) ((contrEquiv1 dot_S1024x128_S128x128_S1024x128_1_0_0_1_n_n 128 rfl rfl).symm l) = ix2 r l := funext fun a => Fin.ext (by
    match a with
    | ⟨0, _⟩ => exact lhsB_0 _ _
    | ⟨1, _⟩ => exact (lhsB_1 _ _).trans hl)
  have er : dot_S1024x128_S128x128_S1024x128_1_0_0_1_n_n.rhsIdx (ix2 r j) ((contrEquiv1 dot_S1024x128_S128x128_S1024x128_1_0_0_1_n_n 128 rfl rfl).symm l) = ix2 l j := funext fun a => Fin.ext (by
    match a with
    | ⟨0, _⟩ => exact (rhsB_0 _ _).trans hl
    | ⟨1, _⟩ => exact rhsB_1 _ _)
  rw [el, er, ← add_ten]
  congr 1
  simp only [exp_at, subf_apply, addf_apply, absf_at, broadcast_apply, acc_lo_apply x0 x1 hE x2 r l,
    lane5_apply x0 x1 hE r l, row5_apply x2 r l,
    slice_apply x0 x1 hE 768 slices_S1024x1280_o0_768_S1024x128 ⟨6, by decide⟩ rfl r l,
    slice_apply x0 x1 hE 896 slices_S1024x1280_o0_896_S1024x128 ⟨7, by decide⟩ rfl r l,
    slice_apply x0 x1 hE 1024 slices_S1024x1280_o0_1024_S1024x128 ⟨8, by decide⟩ rfl r l,
    slice_apply x0 x1 hE 1152 slices_S1024x1280_o0_1152_S1024x128 ⟨9, by decide⟩ rfl r l,
    row_apply x2 6 (by decide) inb_S10x128_S1x128_6_0 r l,
    row_apply x2 7 (by decide) inb_S10x128_S1x128_7_0 r l,
    row_apply x2 8 (by decide) inb_S10x128_S1x128_8_0 r l,
    row_apply x2 9 (by decide) inb_S10x128_S1x128_9_0 r l,
    Ideal.ofBits_def, Ideal.ofBits_zero_f32, zero_sub_ereal]
  rfl

end Cert.LaplaceGram.Block

end
-- ==== Proof.HostPrefix.lean ====
/-
  What the kernel's program computes on the host before the launch, read entry by entry.

  The transposed centres: entry (d, k) is p[k, d]. The selector: a 10 x 10 comparison of the row number with the column
  number, as 1.0 / 0.0, repeated along a new axis of 128 and flattened to 10 x 1280 — so entry (q, 128 d + l) is 1 when
  q = d and 0 otherwise.
-/
import proofs.«179358_g10067403342211_week1_w1_198_4_alg».proof.Proof.Gen.KernelIdeal.Frame
import proofs.«179358_g10067403342211_week1_w1_198_4_alg».proof.Proof.KernelBlock
import Idealize.ShloMosaic.Lib.Pipeline.Value
import Idealize.ShloMosaic.Lib.ValueIdx
import Idealize.ShloMosaic.Lib.StableHlo.Run
import Idealize.ShloMosaic.Lib.StableHlo.Predicate

noncomputable section

open scoped BigOperators

namespace Cert.LaplaceGram.Host

open Cert.KernelIdeal Cert.KernelIdeal.Gen
open Idealize.ShloMosaic Idealize.ShloMosaic.TcCoe Idealize.SL.Sem Idealize.ShloMosaic.StableHlo
open Idealize.ShloMosaic.ValueIdx Cert.LaplaceGram

variable (m : (ℓ : Loc nD τ sig) → Buf (Elt Ideal) ℓ)

/-- The transposed centres, as the region finds them. -/
theorem centresT_eq (c : Dev nD) : (V m c main_v0 : S10x128.Idx → EReal)
    = transpose S10x128 [1, 0] (m ((c : Thread nD τ).loc main_arg1)) transposes_S128x10_S10x128_1_0 := by
  dsimp only [Gen.V, Gen.hostOps0]
  after_results

/-- Entry (d, k) of the transposed centres is p[k, d]. -/
theorem centresT_apply (c : Dev nD) (d : Fin 10) (k : Fin 128) :
    (V m c main_v0 : S10x128.Idx → EReal) (ix2 d k)
      = (m ((c : Thread nD τ).loc main_arg1) : S128x10.Idx → EReal) (ix2 k d) := by
  rw [centresT_eq]
  exact transpose_apply [1, 0] _ transposes_S128x10_S10x128_1_0 (ix2 d k) (ix2 k d)
    (fun b => by match b with | ⟨0, _⟩ => rfl | ⟨1, _⟩ => rfl)

/-- The selector, as the region finds it. -/
theorem selector_eq (c : Dev nD) : (V m c main_v8 : S10x1280.Idx → EReal)
    = shapeCast S10x1280 (broadcastInDim S10x10x128 ![0, 1] bcast_S10x10_S10x10x128_0_1
        (uitofp (F := Ideal) .f32 (cmpi .eq (addi (iotaInDim S10x10 32 0)
          (broadcastInDim S10x10 ![] bcast_S_S10x10 (constantI S_ 32 0#32))) (iotaInDim S10x10 32 1))))
        shapeCasts_S10x10x128_S10x1280 := by
  dsimp only [Gen.V, Gen.hostOps0]
  after_results
  rfl

/-- Row and column numbers below ten are equal as 32-bit words exactly when they are equal. -/
theorem word_eq_iff : ∀ q d : Fin 10, (IntOp.addi (BitVec.ofNat 32 q.val) 0#32 = BitVec.ofNat 32 d.val) ↔ q = d := by decide

/-- The selector's entry (q, 128 d + l) is 1 for q = d and 0 otherwise. -/
theorem selector_isSelector (c : Dev nD) : Block.IsSelector (V m c main_v8) := by
  intro q d l h
  rw [selector_eq]
  refine (shapeCast_apply _ shapeCasts_S10x10x128_S10x1280 (ix2 q ⟨d.val * 128 + l.val, h⟩) (ix3 q d l) ?_).trans ?_
  · rw [Shape.rowMajor_val_three, Shape.rowMajor_val_two]
    show (q.val * 10 + d.val) * 128 + l.val = q.val * 1280 + (d.val * 128 + l.val)
    omega
  refine (broadcastInDim_apply _ bcast_S10x10_S10x10x128_0_1 _ (ix3 q d l) (ix2 q d) (fun a => ?_)).trans ?_
  · match a with
    | ⟨0, _⟩ => show q.val = if (10 : Nat) = 1 then 0 else q.val; rw [if_neg (by decide)]
    | ⟨1, _⟩ => show d.val = if (10 : Nat) = 1 then 0 else d.val; rw [if_neg (by decide)]
  show FloatOps.uitofp (F := Ideal) .f32 (IntOp.cmpi .eq (IntOp.addi (BitVec.ofNat 32 q.val) 0#32) (BitVec.ofNat 32 d.val)) = _
  rw [uitofp_bit]
  by_cases hqd : q = d
  · rw [if_pos hqd, if_pos (StableHlo.Predicate.cmpi_eq_iff.mpr ((word_eq_iff q d).mpr hqd))]
  · rw [if_neg hqd, if_neg (fun hc => hqd ((word_eq_iff q d).mp (StableHlo.Predicate.cmpi_eq_iff.mp hc)))]

end Cert.LaplaceGram.Host

end
-- ==== Proof.KernelValue.lean ====
/-
  From blocks to the whole array: what the kernel's result array holds after the run.

  Grid point t works on rows 1024 t … 1024 t + 1023 of the points; the selector, the transposed centres and the right
  factor are the same whole arrays at every point. So the block point t writes back is rows 1024 t … of `out` of the
  three arguments, the 128 blocks tile the 131072 rows, and the result array ends holding `out`.
-/
import proofs.«179358_g10067403342211_week1_w1_198_4_alg».proof.Proof.Gen.KernelIdeal.Value
import proofs.«179358_g10067403342211_week1_w1_198_4_alg».proof.Proof.KernelBlock
import proofs.«179358_g10067403342211_week1_w1_198_4_alg».proof.Proof.HostPrefix
import proofs.«179358_g10067403342211_week1_w1_198_4_alg».proof.Proof.Spec
import Idealize.ShloMosaic.Lib.Pipeline.Value
import Idealize.ShloMosaic.Lib.ValueIdx

noncomputable section

open scoped BigOperators

namespace Cert.LaplaceGram.Kernel

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.LaplaceGram

variable (m : (ℓ : Loc nD τ sig) → Buf (Elt Ideal) ℓ) (ρ : Dev nD → PrngReg)

/-- The points, the centres and the right factor as launched. -/
abbrev X (c : Dev nD) : S131072x10.Idx → EReal := m ((c : Thread nD τ).loc main_arg0)
abbrev P (c : Dev nD) : S128x10.Idx → EReal := m ((c : Thread nD τ).loc main_arg1)
abbrev C (c : Dev nD) : S128x128.Idx → EReal := m ((c : Thread nD τ).loc main_arg2)

/-- The printed index maps over the 128 grid points: the points and the result move one block of rows per point, the
    other three windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input window's block, read where it lies in its array -/

/-- Row r of the points' block at point t is row 1024 t + r of the points. -/
theorem points_blk (c : Dev nD) (t : Fin cfg0.N) (r : Fin 1024) (d : Fin 10) (h : t.val * 1024 + r.val < 131072) :
    (iblk m c 0 t : Vec Ideal S1024x10 .f32) (ix2 r d) = X m c (ix2 ⟨t.val * 1024 + r.val, h⟩ d) := by
  obtain ⟨e0, e1, -⟩ := idx_facts t
  unfold iblk
  rw [View.read_apply]
  show V m c main_arg0 _ = _
  rw [V_main_arg0]
  show m ((c : Thread nD τ).loc main_arg0) _ = m ((c : Thread nD τ).loc main_arg0) _
  congr 1
  funext a; apply Fin.ext
  match a with
  | ⟨0, _⟩ => show win0_0.index t (0 : Fin 2) * 1024 + 1 * r.val = t.val * 1024 + r.val; rw [e0]; omega
  | ⟨1, _⟩ => show win0_0.index t (1 : Fin 2) * 10 + 1 * d.val = d.val; rw [e1]; omega

/-- The selector's block at every point is the whole selector. -/
theorem selector_blk (c : Dev nD) (t : Fin cfg0.N) : Block.IsSelector (iblk m c 1 t) := by
  obtain ⟨-, -, e0, e1, -⟩ := idx_facts t
  intro q d l h
  refine Eq.trans ?_ (Host.selector_isSelector m c q d l h)
  unfold iblk
  rw [View.read_apply]
  show V m c main_v8 _ = V m c main_v8 _
  congr 1
  funext a; apply Fin.ext
  match a with
  | ⟨0, _⟩ => show win0_1.index t (0 : Fin 2) * 10 + 1 * q.val = q.val; rw [e0]; omega
  | ⟨1, _⟩ => show win0_1.index t (1 : Fin 2) * 1280 + 1 * (d.val * 128 + l.val) = d.val * 128 + l.val; rw [e1]; omega

/-- The transposed centres' block at every point is the whole array: entry (d, k) is p[k, d]. -/
theorem centres_blk (c : Dev nD) (t : Fin cfg0.N) (d : Fin 10) (k : Fin 128) :
    (iblk m c 2 t : Vec Ideal S10x128 .f32) (ix2 d k) = P m c (ix2 k d) := by
  obtain ⟨-, -, -, -, e0, e1, -⟩ := idx_facts t
  refine Eq.trans ?_ (Host.centresT_apply m c d k)
  unfold iblk
  rw [View.read_apply]
  show V m c main_v0 _ = V m c main_v0 _
  congr 1
  funext a; apply Fin.ext
  match a with
  | ⟨0, _⟩ => show win0_2.index t (0 : Fin 2) * 10 + 1 * d.val = d.val; rw [e0]; omega
  | ⟨1, _⟩ => show win0_2.index t (1 : Fin 2) * 128 + 1 * k.val = k.val; rw [e1]; omega

/-- The right factor's block at every point is the whole factor. -/
theorem factor_blk (c : Dev nD) (t : Fin cfg0.N) (k j : Fin 128) :
    (iblk m c 3 t : Vec Ideal S128x128 .f32) (ix2 k j) = C m c (ix2 k j) := by
  obtain ⟨-, -, -, -, -, -, e0, e1, -⟩ := idx_facts t
  unfold iblk
  rw [View.read_apply]
  show V m c main_arg2 _ = _
  rw [V_main_arg2]
  show m ((c : Thread nD τ).loc main_arg2) _ = m ((c : Thread nD τ).loc main_arg2) _
  congr 1
  funext a; apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-! ## What a point writes back -/

/-- Entry (r, j) of what point t writes back is entry (1024 t + r, j) of `out` of the arguments. -/
theorem flushed_apply (c : Dev nD) (t : Fin cfg0.N) (r : Fin 1024) (j : Fin 128) (h : t.val * 1024 + r.val < 131072) :
    ((dats m 0 c).flushed 4 t : Vec Ideal S1024x128 .f32) (ix2 r j)
      = out (X m c) (P m c) (C m c) (ix2 ⟨t.val * 1024 + r.val, h⟩ j) := by
  rw [flushed4]
  show out0_4 (iblk m c 0 t) (iblk m c 1 t) (iblk m c 2 t) (iblk m c 3 t) (ix2 r j) = _
  refine (Block.block_apply (iblk m c 0 t) (iblk m c 1 t) (iblk m c 2 t) (iblk m c 3 t) (selector_blk m c t) r j).trans ?_
  unfold out gram dist
  refine Finset.sum_congr rfl fun k _ => ?_
  rw [factor_blk m c t k j]
  refine congrArg (fun s => Ideal.exp (-s) * C m c (ix2 k j)) (Finset.sum_congr rfl fun d _ => ?_)
  rw [points_blk m c t r d h, centres_blk m c t d k]

/-- WHAT POINT t WRITES BACK is block t of `out` of the arguments. -/
theorem flushed_eq (c : Dev nD) (t : Fin cfg0.N) :
    (dats m 0 c).flushed 4 t = ((cfg0.win 4).blk t).view.read (Elt Ideal) (out (X m c) (P m c) (C m c)) := by
  obtain ⟨-, -, -, -, -, -, -, -, e0, e1⟩ := idx_facts t
  have hN : t.val < 128 := by have h1 := t.isLt; have h2 : cfg0.N = 128 := N_0; omega
  funext y
  have hy0 : (y 0).val < 1024 := (y 0).isLt
  have hy1 : (y 1).val < 128 := (y 1).isLt
  have hlt : t.val * 1024 + (y 0).val < 131072 := by omega
  have hy : (ix2 (⟨(y 0).val, hy0⟩ : Fin 1024) (⟨(y 1).val, hy1⟩ : Fin 128) : S1024x128.Idx) = y :=
    funext fun a => by match a with | ⟨0, _⟩ => rfl | ⟨1, _⟩ => rfl
  have e := flushed_apply m c t ⟨(y 0).val, hy0⟩ ⟨(y 1).val, hy1⟩ hlt
  rw [hy] at e
  refine e.trans ?_
  rw [View.read_apply]
  show out (X m c) (P m c) (C m c) _ = out (X m c) (P m c) (C m c) _
  congr 1
  funext a; apply Fin.ext
  match a with
  | ⟨0, _⟩ => show t.val * 1024 + (y 0).val = win0_4.index t (0 : Fin 2) * 1024 + 1 * (y 0).val; rw [e0]; omega
  | ⟨1, _⟩ => show (y 1).val = win0_4.index t (1 : Fin 2) * 128 + 1 * (y 1).val; rw [e1]; omega

/-! ## The cover, the array, the run -/

/-- An index of the result array is in point t's block iff each coordinate is in the block's range on its axis. -/
theorem mem_blk (t : Fin cfg0.N) (i : S131072x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v9).slice (win0_4.rect t)).set ↔ _
  rw [View.set_slice_whole, Rect.mem_set_unit]
  exact Iff.rfl

/-- Row n of the result lies in the block of point n / 1024. -/
theorem cover (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 128 := N_0
  let t : Fin cfg0.N := ⟨(i 0).val / 1024, by rw [hN]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 128 ≤ (i 1).val ∧ (i 1).val < win0_4.index t (1 : Fin 2) * 128 + 128; rw [e1]; omega

/-- THE RESULT ARRAY after the run is `out` of the arguments. -/
theorem final (c : Dev nD) : (dats m 0 c).arrAt 4 cfg0.N = out (X m c) (P m c) (C m c) :=
  (dats m 0 c).arrAt_eq_of_cover 4 (out (X m c) (P m c) (C m c)) (fun t _ => flushed_eq m c t) cover

/-- The run, read: the result array at `out` of the arguments, the arguments unchanged. -/
theorem run : θ_run defs (onTc (τ := τ) (main (F := Ideal))) ⟨m, fun _ => 0, ρ⟩ fun r => ∀ c : Dev nD,
      r.2.mem ((c : Thread nD τ).loc main_v9) = out (X m c) (P m c) (C m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.LaplaceGram.Kernel

end
-- ==== Proof.lean ====
/-
  The kernel computes the product Laplace kernel matrix of 131072 points against 128 centres in R^10, times a 128 x 128
  matrix `c`: out[n, j] = sum over k of exp(-(sum over d of |x[n,d] - p[k,d]|)) * c[k, j], 1024 rows of points per grid
  point. It spreads each coordinate of a row along 128 lanes by a product with a 0/1 selector matrix built on the host,
  subtracts the transposed centres row by row, adds the ten absolute differences from the left, exponentiates 0 minus
  the sum and multiplies by `c`. The reference broadcasts points and centres to [131072, 128, 10], sums |x - p| over the
  last axis from 0, negates, divides by 1, exponentiates and multiplies by `c`.

  On the extended reals both are the same function of the three arguments, entry by entry (Proof/Spec.lean's `out`):
  0 * y = 0 and 1 * y = y make the selector product pick the coordinate, addition is associative and commutative so the
  left-to-right sum of ten terms is the sum over the coordinate axis, 0 - y = -y, and y / 1 = y. None of these laws needs
  the entries to be finite, so the precondition is never opened.

  Proof/Spec.lean: `out` and the laws. Proof/RefValue.lean: the reference's result is `out`. Proof/KernelBlock.lean: one
  block of the kernel's result, entry by entry. Proof/HostPrefix.lean: the selector and the transposed centres as the
  launch finds them. Proof/KernelValue.lean: the 128 blocks tile the result array, which ends holding `out`.
  Here: the three frames (each program runs and leaves its arguments unchanged), the empty idealization ledger, and the
  two runs ending at the same array.
-/
import proofs.«179358_g10067403342211_week1_w1_198_4_alg».proof.Defs
import proofs.«179358_g10067403342211_week1_w1_198_4_alg».proof.Proof.Gen.Kernel
import proofs.«179358_g10067403342211_week1_w1_198_4_alg».proof.Proof.Gen.Kernel.Skeleton
import proofs.«179358_g10067403342211_week1_w1_198_4_alg».proof.Proof.Gen.Kernel.Launch
import proofs.«179358_g10067403342211_week1_w1_198_4_alg».proof.Proof.Gen.Kernel.Points
import proofs.«179358_g10067403342211_week1_w1_198_4_alg».proof.Proof.Gen.Kernel.Frame
import proofs.«179358_g10067403342211_week1_w1_198_4_alg».proof.Proof.Gen.KernelIdeal
import proofs.«179358_g10067403342211_week1_w1_198_4_alg».proof.Proof.Gen.KernelIdeal.Skeleton
import proofs.«179358_g10067403342211_week1_w1_198_4_alg».proof.Proof.Gen.KernelIdeal.Launch
import proofs.«179358_g10067403342211_week1_w1_198_4_alg».proof.Proof.Gen.KernelIdeal.Points
import proofs.«179358_g10067403342211_week1_w1_198_4_alg».proof.Proof.Gen.KernelIdeal.Frame
import proofs.«179358_g10067403342211_week1_w1_198_4_alg».proof.Proof.Gen.ReferenceIdeal
import proofs.«179358_g10067403342211_week1_w1_198_4_alg».proof.Proof.Gen.Pre_finite_inputs
import proofs.«179358_g10067403342211_week1_w1_198_4_alg».proof.Proof.Gen.KernelIdeal.Value
import proofs.«179358_g10067403342211_week1_w1_198_4_alg».proof.Proof.Gen.ReferenceIdeal.Run
import proofs.«179358_g10067403342211_week1_w1_198_4_alg».proof.Proof.Gen.ReferenceIdeal.Read
import proofs.«179358_g10067403342211_week1_w1_198_4_alg».proof.Proof.Spec
import proofs.«179358_g10067403342211_week1_w1_198_4_alg».proof.Proof.RefValue
import proofs.«179358_g10067403342211_week1_w1_198_4_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its three arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs to the end and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's, from arguments that agree, are both `out` of
    the arguments: the Laplace kernel matrix times `c`. -/
theorem algebraic : Cert.algebraic_KernelIdeal_ReferenceIdeal := by
  intro m ρ m' ρ' _ hagree
  refine ⟨fun c => Cert.LaplaceGram.out (Cert.LaplaceGram.Kernel.X m c) (Cert.LaplaceGram.Kernel.P m c)
    (Cert.LaplaceGram.Kernel.C m c), Cert.LaplaceGram.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.LaplaceGram.Ref.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
